-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)) (v1 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_v0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_v3) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x524288 : Shape := ⟨2, ![64, 524288]⟩
abbrev S64x64 : Shape := ⟨2, ![64, 64]⟩
abbrev S_ : Shape := ⟨0, ![]⟩

class Facts : Prop where
  bcast_S_S64x524288 : S_.BroadcastsInDim S64x524288 (![] : Fin 0 → Fin S64x524288.rank)
  reducesTo_S64x524288_S_d0_1 : S64x524288.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  main_v18

def fn {F : FTy → Type} [FloatOps F] (main_arg0 : FVec F S64x524288 .f32) (main_arg1 : FVec F S64x524288 .f32) (main_arg2 : FVec F S64x64 .f32) (main_arg3 : FVec F S64x64 .f32) : IVec S_ 1 :=
  let main_v0 : FVec F S64x524288 .f32 := Host.absf main_arg0
  let main_cst : FVec F S_ .f32 := constant S_ .f32 0x7F800000#32
  let main_v1 : FVec F S64x524288 .f32 := broadcastInDim S64x524288 ![] bcast_S_S64x524288 main_cst
  let main_v2 : IVec S64x524288 1 := cmpf .olt main_v0 main_v1
  let main_c : IVec S_ 1 := constantI S_ 1 1#1
  let main_v3 : IVec S_ 1 := (fun x v => Host.reduce IntOp.andi x v reducesTo_S64x524288_S_d0_1 h_S_) main_v2 main_c
  let main_v4 : FVec F S64x524288 .f32 := Host.absf main_arg1
  let main_cst_0 : FVec F S_ .f32 := constant S_ .f32 0x7F800000#32
  let main_v5 : FVec F S64x524288 .f32 := broadcastInDim S64x524288 ![] bcast_S_S64x524288 main_cst_0
  let main_v6 : IVec S64x524288 1 := cmpf .olt main_v4 main_v5
  let main_c_1 : IVec S_ 1 := constantI S_ 1 1#1
  let main_v7 : IVec S_ 1 := (fun x v => Host.reduce IntOp.andi x v reducesTo_S64x524288_S_d0_1 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_v13 main_v16
-- ==== Kernel.lean ====
abbrev S64x524288 : Shape := ⟨2, ![64, 524288]⟩
abbrev S64x64 : Shape := ⟨2, ![64, 64]⟩
abbrev S64x8192 : Shape := ⟨2, ![64, 8192]⟩

abbrev nBuf : Space → Nat
  | .hbm => 5
  | .vmem => 8
  | .smem => 0
  | _ => 0

abbrev bufTy : (tb : Table) → Fin (tcTables nBuf tb) → BufTy
  | .hbm, ⟨0, _⟩ => ⟨S64x524288, .f32⟩
  | .hbm, ⟨1, _⟩ => ⟨S64x524288, .f32⟩
  | .hbm, ⟨2, _⟩ => ⟨S64x64, .f32⟩
  | .hbm, ⟨3, _⟩ => ⟨S64x64, .f32⟩
  | .hbm, ⟨4, _⟩ => ⟨S64x524288, .f32⟩
  | .local _ .vmem, ⟨0, _⟩ => ⟨S64x64, .f32⟩
  | .local _ .vmem, ⟨1, _⟩ => ⟨S64x64, .f32⟩
  | .local _ .vmem, ⟨2, _⟩ => ⟨S64x8192, .f32⟩
  | .local _ .vmem, ⟨3, _⟩ => ⟨S64x8192, .f32⟩
  | .local _ .vmem, ⟨4, _⟩ => ⟨S64x8192, .f32⟩
  | .local _ .vmem, ⟨5, _⟩ => ⟨S64x8192, .f32⟩
  | .local _ .vmem, ⟨6, _⟩ => ⟨S64x8192, .f32⟩
  | .local _ .vmem, ⟨7, _⟩ => ⟨S64x8192, .f32⟩
  | _, _ => ⟨S64x524288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S64x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S64x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x8192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S64x64_S64x64_0_0 : ∀ a, (![0, 0] : Fin 2 → Nat) a + S64x64.size a ≤ S64x64.size a
  h_S64x64 : 0 < S64x64.numel
  bitsLt_bf16_f32 : FTy.bits .bf16 < FTy.bits .f32
  inb_S64x8192_S64x8192_0_0 : ∀ a, (![0, 0] : Fin 2 → Nat) a + S64x8192.size a ≤ S64x8192.size a
  h_S64x8192 : 0 < S64x8192.numel
  dot_S64x64_S64x8192_S64x8192_1_0_0_1_n_n_wf : DotDims.WF S64x64 S64x8192 S64x8192 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S64x64.size a ≤ S64x64.size a
  hwx0_0 : ∀ i : grid0.Coords, EltTy.bits .f32 = 32 ∨ (Rect.block (s := S64x64) S64x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x8192.size a ≤ S64x524288.size a
  hwx0_2 : ∀ i : grid0.Coords, EltTy.bits .f32 = 32 ∨ (Rect.block (s := S64x524288) S64x8192.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x8192.size a ≤ S64x524288.size a
  hwx0_3 : ∀ i : grid0.Coords, EltTy.bits .f32 = 32 ∨ (Rect.block (s := S64x524288) S64x8192.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S64x8192.size a ≤ S64x524288.size a
  hwx0_4 : ∀ i : grid0.Coords, EltTy.bits .f32 = 32 ∨ (Rect.block (s := S64x524288) S64x8192.size (cc0_transform_4 i) (hinb0_4 i)).WholeWords (EltTy.packing .f32)

variable [Facts₀]

def dot_S64x64_S64x8192_S64x8192_1_0_0_1_n_n : DotDims S64x64 S64x8192 S64x8192 where
  lhsContracting := [1]
  rhsContracting := [0]
  lhsNonContracting := [0]
  rhsNonContracting := [1]
  lhsBatch := []
  rhsBatch := []
  wf := dot_S64x64_S64x8192_S64x8192_1_0_0_1_n_n_wf

abbrev win0_0 : Pipeline.Window sig grid0 :=
  Pipeline.Window.ofSpec (Memref.whole main_arg2) S64x64.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S64x8192.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S64x8192.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S64x8192.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S64x524288 : Shape := ⟨2, ![64, 524288]⟩
abbrev S64x64 : Shape := ⟨2, ![64, 64]⟩

abbrev nBuf : Space → Nat
  | .hbm => 8
  | .vmem => 0
  | .smem => 0
  | _ => 0

abbrev bufTy : (tb : Table) → Fin (tcTables nBuf tb) → BufTy
  | .hbm, ⟨0, _⟩ => ⟨S64x524288, .f32⟩
  | .hbm, ⟨1, _⟩ => ⟨S64x524288, .f32⟩
  | .hbm, ⟨2, _⟩ => ⟨S64x64, .f32⟩
  | .hbm, ⟨3, _⟩ => ⟨S64x64, .f32⟩
  | .hbm, ⟨4, _⟩ => ⟨S64x524288, .f32⟩
  | .hbm, ⟨5, _⟩ => ⟨S64x524288, .f32⟩
  | .hbm, ⟨6, _⟩ => ⟨S64x524288, .f32⟩
  | .hbm, ⟨7, _⟩ => ⟨S64x524288, .f32⟩
  | _, _ => ⟨S64x524288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]

class Facts₀ : Prop where
  dot_S64x64_S64x524288_S64x524288_1_0_0_1_n_n_wf : DotDims.WF S64x64 S64x524288 S64x524288 [1] [0] [0] [1] [] []

variable [Facts₀]

def dot_S64x64_S64x524288_S64x524288_1_0_0_1_n_n : DotDims S64x64 S64x524288 S64x524288 where
  lhsContracting := [1]
  rhsContracting := [0]
  lhsNonContracting := [0]
  rhsNonContracting := [1]
  lhsBatch := []
  rhsBatch := []
  wf := dot_S64x64_S64x524288_S64x524288_1_0_0_1_n_n_wf

class Facts : Prop extends Facts₀ where

variable [Facts]
-- ==== Proof.LibSideBySide.lean ====
/-
  Two matrix products with a common right factor, laid side by side.

  Over the extended reals, entry (a, b) of the product of an r×k matrix A with a k×n matrix B is the sum over the
  contracted coordinate c of A(a, c) · B(c, b). No rounding and no order of summation is left in it: addition on the
  extended reals is commutative and associative, so the sum is a plain finite sum and nothing here asks that an entry be
  finite.

  A kernel forms such a product on the matrix unit, accumulating into a zero block; the host forms it by a
  dot_general with no accumulator. At the ideal values both are that sum (`kernelProduct_apply`, `hostProduct_apply`),
  whatever float formats the factors were narrowed to on the way, a change of format being the identity there.

  `sideBySide A₁ A₂ B` is the r×w array whose columns 0 … n−1 hold A₁·B and whose columns n … 2n−1 hold A₂·B: what
  concatenating the two products along the column axis gives (`concatenate_products`), and equally what writing one product
  into the left half of a block and the other into the right half gives. Row p of either product depends on row p of its left
  factor alone, so a block of rows of the side-by-side array is the side-by-side array of the blocks of rows (`sideBySide_rows`).
-/
import Idealize.ShloMosaic.Lib.StackMember

noncomputable section

namespace SideBySide

open Idealize.ShloMosaic Idealize.ShloMosaic.ValueIdx

variable {r k n w : Nat}

/-- Entry (a, b) of the product A·B of an r×k and a k×n matrix of extended reals. -/
def entry (A : (⟨2, ![r, k]⟩ : Shape).Idx → EReal) (B : (⟨2, ![k, n]⟩ : Shape).Idx → EReal) (a : Fin r) (b : Fin n) : EReal :=
  ∑ c : Fin k, A (ix2 a c) * B (ix2 c b)

/-- The host's product of an r×k by a k×n matrix (rows by columns, one contracted axis), read at (a, b), is that entry. The
    dimension numbers are given as a record equal to the plain one, so that a program's own record fits. -/
theorem hostProduct_apply {φ₁ φ₂ : FTy} (d : DotDims ⟨2, ![r, k]⟩ ⟨2, ![k, n]⟩ ⟨2, ![r, n]⟩) (hd : d = DotDims.plain r k n)
    (prec : Option ContractPrecision) (A : FVec Ideal ⟨2, ![r, k]⟩ φ₁) (B : FVec Ideal ⟨2, ![k, n]⟩ φ₂) (a : Fin r) (b : Fin n) :
    Host.dotGeneral d prec A B (ix2 a b) = entry A B a b := by
  subst hd
  exact StackMember.dotGeneral_plain_apply prec A B a b

/-- The matrix unit's product accumulated into a zero block, read at (a, b), is the same entry: the zero contributes
    nothing to the sum. -/
theorem kernelProduct_apply {φ₁ φ₂ : FTy} (d : DotDims ⟨2, ![r, k]⟩ ⟨2, ![k, n]⟩ ⟨2, ![r, n]⟩) (hd : d = DotDims.plain r k n)
    (prec : Option ContractPrecision) (A : FVec Ideal ⟨2, ![r, k]⟩ φ₁) (B : FVec Ideal ⟨2, ![k, n]⟩ φ₂) (a : Fin r) (b : Fin n) :
    matmul d prec A B (constant (F := Ideal) ⟨2, ![r, n]⟩ .f32 0x00000000#32) (ix2 a b) = entry A B a b := by
  rw [matmul_zero_eq_dotGeneral]
  exact hostProduct_apply d hd prec A B a b

/-- The r×w array with A₁·B in columns 0 … n−1 and A₂·B in columns n … 2n−1 (zero in any column past 2n−1, of which an
    array of width 2n has none). -/
def sideBySide (A₁ A₂ : (⟨2, ![r, k]⟩ : Shape).Idx → EReal) (B : (⟨2, ![k, n]⟩ : Shape).Idx → EReal) :
    (⟨2, ![r, w]⟩ : Shape).Idx → EReal := fun j =>
  if h : (j 1).val < n then entry A₁ B (j 0) ⟨(j 1).val, h⟩
  else if h' : (j 1).val - n < n then entry A₂ B (j 0) ⟨(j 1).val - n, h'⟩ else 0

/-- A column of the left half reads the first product. -/
theorem sideBySide_left (A₁ A₂ : (⟨2, ![r, k]⟩ : Shape).Idx → EReal) (B : (⟨2, ![k, n]⟩ : Shape).Idx → EReal)
    (a : Fin r) (b : Fin w) (hb : b.val < n) :
    sideBySide (w := w) A₁ A₂ B (ix2 a b) = entry A₁ B a ⟨b.val, hb⟩ := by
  show (if h : b.val < n then entry A₁ B a ⟨b.val, h⟩
    else if h' : b.val - n < n then entry A₂ B a ⟨b.val - n, h'⟩ else 0) = _
  rw [dif_pos hb]

/-- A column of the right half reads the second product, n columns to the left. -/
theorem sideBySide_right (A₁ A₂ : (⟨2, ![r, k]⟩ : Shape).Idx → EReal) (B : (⟨2, ![k, n]⟩ : Shape).Idx → EReal)
    (a : Fin r) (b : Fin w) (hb : n ≤ b.val) (hb' : b.val - n < n) :
    sideBySide (w := w) A₁ A₂ B (ix2 a b) = entry A₂ B a ⟨b.val - n, hb'⟩ := by
  show (if h : b.val < n then entry A₁ B a ⟨b.val, h⟩
    else if h' : b.val - n < n then entry A₂ B a ⟨b.val - n, h'⟩ else 0) = _
  rw [dif_neg (Nat.not_lt.2 hb), dif_pos hb']

/-- A column past both halves reads zero. -/
theorem sideBySide_beyond (A₁ A₂ : (⟨2, ![r, k]⟩ : Shape).Idx → EReal) (B : (⟨2, ![k, n]⟩ : Shape).Idx → EReal)
    (a : Fin r) (b : Fin w) (hb : ¬ b.val < n) (hb' : ¬ b.val - n < n) :
    sideBySide (w := w) A₁ A₂ B (ix2 a b) = 0 := by
  show (if h : b.val < n then entry A₁ B a ⟨b.val, h⟩
    else if h' : b.val - n < n then entry A₂ B a ⟨b.val - n, h'⟩ else 0) = _
  rw [dif_neg hb, dif_neg hb']

/-- A block of rows of the side-by-side array is the side-by-side array of that block of rows of each left factor: row p
    of a product depends on row p of its left factor only. Here a₁ and a₂ are rows off … off + r − 1 of A₁ and A₂. -/
theorem sideBySide_rows {R : Nat} (A₁ A₂ : (⟨2, ![R, k]⟩ : Shape).Idx → EReal) (B : (⟨2, ![k, n]⟩ : Shape).Idx → EReal)
    (a₁ a₂ : (⟨2, ![r, k]⟩ : Shape).Idx → EReal) (off : Nat) (hoff : off + r ≤ R)
    (h₁ : ∀ (p : Fin r) (c : Fin k), a₁ (ix2 p c) = A₁ (ix2 ⟨off + p.val, by have := p.isLt; omega⟩ c))
    (h₂ : ∀ (p : Fin r) (c : Fin k), a₂ (ix2 p c) = A₂ (ix2 ⟨off + p.val, by have := p.isLt; omega⟩ c))
    (p : Fin r) (b : Fin w) :
    sideBySide (w := w) a₁ a₂ B (ix2 p b)
      = sideBySide (w := w) A₁ A₂ B (ix2 ⟨off + p.val, by have := p.isLt; omega⟩ b) := by
  have e₁ : ∀ q : Fin n, entry a₁ B p q = entry A₁ B ⟨off + p.val, by have := p.isLt; omega⟩ q := fun q => by
    unfold entry; exact Finset.sum_congr rfl fun c _ => by rw [h₁]
  have e₂ : ∀ q : Fin n, entry a₂ B p q = entry A₂ B ⟨off + p.val, by have := p.isLt; omega⟩ q := fun q => by
    unfold entry; exact Finset.sum_congr rfl fun c _ => by rw [h₂]
  by_cases hb : b.val < n
  · rw [sideBySide_left _ _ _ _ _ hb, sideBySide_left _ _ _ _ _ hb, e₁]
  · by_cases hb' : b.val - n < n
    · rw [sideBySide_right _ _ _ _ _ (Nat.not_lt.1 hb) hb', sideBySide_right _ _ _ _ _ (Nat.not_lt.1 hb) hb', e₂]
    · rw [sideBySide_beyond _ _ _ _ _ hb hb', sideBySide_beyond _ _ _ _ _ hb hb']

/-- The host's two products concatenated along the column axis are the two products side by side. -/
theorem concatenate_products {φ₁ φ₂ : FTy} (d : DotDims ⟨2, ![r, k]⟩ ⟨2, ![k, n]⟩ ⟨2, ![r, n]⟩) (hd : d = DotDims.plain r k n)
    (prec : Option ContractPrecision) (A₁ A₂ : FVec Ideal ⟨2, ![r, k]⟩ φ₁) (B : FVec Ideal ⟨2, ![k, n]⟩ φ₂)
    (hw : w = n + n)
    (h : Shape.Concatenates [(⟨2, ![r, n]⟩ : Shape), (⟨2, ![r, n]⟩ : Shape)] (⟨2, ![r, w]⟩ : Shape) 1) :
    concatenate (⟨2, ![r, w]⟩ : Shape) 1
        [⟨(⟨2, ![r, n]⟩ : Shape), Host.dotGeneral d prec A₁ B⟩, ⟨(⟨2, ![r, n]⟩ : Shape), Host.dotGeneral d prec A₂ B⟩] h
      = sideBySide (w := w) A₁ A₂ B := by
  funext j
  obtain ⟨a, b, rfl⟩ : ∃ (a : Fin r) (b : Fin w), j = ix2 a b := ⟨j 0, j 1, eq_ix2 j⟩
  by_cases hb : b.val < n
  · rw [sideBySide_left A₁ A₂ B a b hb, ← hostProduct_apply d hd prec A₁ B a ⟨b.val, hb⟩]
    exact concatenate_pair_apply_left 1 _ _ h (ix2 a b) rfl (ix2 a ⟨b.val, hb⟩)
      (fun q => by match q with | ⟨0, _⟩ => rfl | ⟨1, _⟩ => rfl)
  · have hb1 : n ≤ b.val := Nat.not_lt.1 hb
    have hb2 : b.val - n < n := by have := b.isLt; omega
    rw [sideBySide_right A₁ A₂ B a b hb1 hb2, ← hostProduct_apply d hd prec A₂ B a ⟨b.val - n, hb2⟩]
    exact concatenate_pair_apply_right 1 _ _ h (ix2 a b) rfl rfl (ix2 a ⟨b.val - n, hb2⟩)
      (fun q hq => by
        match q with
        | ⟨0, _⟩ => rfl
        | ⟨1, _⟩ => exact absurd rfl hq)
      (by show (b.val - n) + n = b.val; omega)

end SideBySide

end
-- ==== Proof.Hidden.lean ====
/-
  The hidden state of the layer: for an agent a and a feature n,

      hidden(a, n) = tanh( Σ_k H(a, k) · h(k, n)  +  Σ_k C(a, k) · c(k, n) ),     k over the 64 agents,

  on the extended reals: the two matrix products H·h and C·c added entry by entry, then the hyperbolic tangent (which
  sends -∞ to -1 and +∞ to 1). Each sum is a plain finite sum of products, so nothing here asks that an entry be finite,
  and the order in which a machine adds the 64 products is not seen.

  The feature axis is long (524288 columns) and is worked in 64 slabs of 8192 columns. Column q of slab t is column
  8192·t + q of the whole. An entry of a product depends on ONE column of its right factor, so an entry of the product of H
  with a slab of h is the entry of H·h at the slab's column (`entry_slab`), and the hidden state computed from slab t of h
  and of c is slab t of the hidden state (`hidden_slab`).
-/
import proofs.«147087_j34995393527975_1_alg».proof.Proof.LibSideBySide

noncomputable section

namespace Cert.Hidden

open Idealize.ShloMosaic Idealize.ShloMosaic.ValueIdx SideBySide

/-- The hidden state, entry by entry: the tangent of the sum of the two products' entries. -/
def hidden (H C : (⟨2, ![64, 64]⟩ : Shape).Idx → EReal) (h c : (⟨2, ![64, 524288]⟩ : Shape).Idx → EReal) :
    (⟨2, ![64, 524288]⟩ : Shape).Idx → EReal :=
  fun i => Ideal.tanh (entry H h (i 0) (i 1) + entry C c (i 0) (i 1))

/-- Column q of slab t is column 8192·t + q of the whole array. -/
def slabCol (t : Nat) (ht : t < 64) (q : Fin 8192) : Fin 524288 := ⟨t * 8192 + q.val, by have := q.isLt; omega⟩

/-- An entry of the product of A with slab t of B is the entry of A·B at the slab's column: the sum runs over the rows of
    B, and row k of the slab at column q is row k of B at column 8192·t + q. -/
theorem entry_slab (A a : (⟨2, ![64, 64]⟩ : Shape).Idx → EReal) (B : (⟨2, ![64, 524288]⟩ : Shape).Idx → EReal)
    (b : (⟨2, ![64, 8192]⟩ : Shape).Idx → EReal) (t : Nat) (ht : t < 64)
    (ha : ∀ p k : Fin 64, a (ix2 p k) = A (ix2 p k))
    (hb : ∀ (k : Fin 64) (q : Fin 8192), b (ix2 k q) = B (ix2 k (slabCol t ht q)))
    (p : Fin 64) (q : Fin 8192) : entry a b p q = entry A B p (slabCol t ht q) := by
  unfold entry
  exact Finset.sum_congr rfl fun k _ => by rw [ha, hb]

/-- The hidden state of slab t of h and c, with the whole of H and C, is slab t of the hidden state. -/
theorem hidden_slab (H C x0 x1 : (⟨2, ![64, 64]⟩ : Shape).Idx → EReal) (h c : (⟨2, ![64, 524288]⟩ : Shape).Idx → EReal)
    (x2 x3 : (⟨2, ![64, 8192]⟩ : Shape).Idx → EReal) (t : Nat) (ht : t < 64)
    (e0 : ∀ p k : Fin 64, x0 (ix2 p k) = H (ix2 p k)) (e1 : ∀ p k : Fin 64, x1 (ix2 p k) = C (ix2 p k))
    (e2 : ∀ (k : Fin 64) (q : Fin 8192), x2 (ix2 k q) = h (ix2 k (slabCol t ht q)))
    (e3 : ∀ (k : Fin 64) (q : Fin 8192), x3 (ix2 k q) = c (ix2 k (slabCol t ht q)))
    (p : Fin 64) (q : Fin 8192) :
    Ideal.tanh (entry x0 x2 p q + entry x1 x3 p q) = hidden H C h c (ix2 p (slabCol t ht q)) := by
  rw [entry_slab H x0 h x2 t ht e0 e2, entry_slab C x1 c x3 t ht e1 e3]
  rfl

end Cert.Hidden

end
-- ==== Proof.SlabPayload.lean ====
/-
  What the kernel's body computes from one slab. The body loads the whole of H and C and one slab (8192 columns) of h and of c,
  narrows each to bfloat16 (on the extended reals a change of format changes nothing), forms the two products on the matrix unit,
  each accumulated into a zero block (the zero adds nothing), adds them and takes the hyperbolic tangent. So the value it stores at
  (p, q) of the slab is the tangent of the sum of the two products' entries at (p, q).
-/
import proofs.«147087_j34995393527975_1_alg».proof.Proof.Gen.KernelIdeal.Skeleton
import proofs.«147087_j34995393527975_1_alg».proof.Proof.Hidden

noncomputable section

namespace Cert.KernelIdeal.HiddenValue

open Cert.KernelIdeal Cert.KernelIdeal.Gen Idealize.ShloMosaic Idealize.ShloMosaic.ValueIdx

/-- The body's products are plain ones: 64×64 by 64×8192, rows by columns, the agent axis contracted. -/
theorem dims_plain : dot_S64x64_S64x8192_S64x8192_1_0_0_1_n_n = DotDims.plain 64 64 8192 := rfl

/-- The stored value at (p, q): the tangent of the two products' entries added. -/
theorem payload_apply (x0 x1 : Vec Ideal S64x64 .f32) (x2 x3 : Vec Ideal S64x8192 .f32) (p : Fin 64) (q : Fin 8192) :
    k0_pay1 (F := Ideal) x0 x1 x2 x3 (ix2 p q)
      = Ideal.tanh (SideBySide.entry x0 x2 p q + SideBySide.entry x1 x3 p q) := by
  unfold k0_pay1
  show Ideal.tanh
      (matmul dot_S64x64_S64x8192_S64x8192_1_0_0_1_n_n none (truncf .bf16 x0 bitsLt_bf16_f32) (truncf .bf16 x2 bitsLt_bf16_f32)
          (constant (F := Ideal) S64x8192 .f32 0x00000000#32) (ix2 p q)
        + matmul dot_S64x64_S64x8192_S64x8192_1_0_0_1_n_n none (truncf .bf16 x1 bitsLt_bf16_f32) (truncf .bf16 x3 bitsLt_bf16_f32)
          (constant (F := Ideal) S64x8192 .f32 0x00000000#32) (ix2 p q)) = _
  rw [SideBySide.kernelProduct_apply _ dims_plain, SideBySide.kernelProduct_apply _ dims_plain]
  rfl

end Cert.KernelIdeal.HiddenValue

end
-- ==== Proof.KernelRun.lean ====
/-
  The kernel's result array. The grid has 64 points; at point t the pipeline hands the body the whole of H and C (their windows
  never move) and slab t of h and of c, and writes the body's result back as slab t of the result array: every window's
  block index is 0 on the agent axis, and on the feature axis it is 0 for H and C and t for h, c and the result.

  So what point t writes back is slab t of the hidden state of the four argument arrays (`slab_written`). The 64 slabs tile the
  feature axis — column n lies in slab n / 8192 — hence every entry of the result array is written by some point (`covered`) and
  the array ends holding the hidden state (`result_array`, `run`).
-/
import proofs.«147087_j34995393527975_1_alg».proof.Proof.Gen.KernelIdeal.Value
import proofs.«147087_j34995393527975_1_alg».proof.Proof.SlabPayload

noncomputable section

namespace Cert.KernelIdeal.HiddenValue

open Cert.KernelIdeal Cert.KernelIdeal.Gen Idealize.ShloMosaic Idealize.ShloMosaic.TcCoe Idealize.SL.Sem
open Idealize.ShloMosaic.ValueIdx Cert.Hidden
open Idealize.ShloMosaic.Pipeline (Dat)

variable (m : (ℓ : Loc nD τ sig) → Buf (Elt Ideal) ℓ) (ρ : Dev nD → PrngReg)

theorem origin : (![0, 0] : Fin 2 → Nat) = fun _ => 0 := funext fun a => by fin_cases a <;> rfl

/-- The block index of every window at every grid point: 0 on the agent axis; on the feature axis 0 for H and C, the point's
    number for h, c and the result. -/
theorem block_indices : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = t.val
    ∧ win0_3.index t (0 : Fin 2) = 0 ∧ win0_3.index t (1 : Fin 2) = t.val
    ∧ win0_4.index t (0 : Fin 2) = 0 ∧ win0_4.index t (1 : Fin 2) = t.val :=
  (by decide +kernel : ∀ t : Fin grid0.N, _)

theorem point_lt (t : Fin cfg0.N) : t.val < 64 := Nat.lt_of_lt_of_eq t.isLt (show cfg0.N = 64 from N_0)

/-- H's window at any point is the whole of H. -/
theorem block_H (c : Dev nD) (t : Fin cfg0.N) (p k : Fin 64) : iblk m c 0 t (ix2 p k) = V m c main_arg2 (ix2 p k) := by
  obtain ⟨e0, e1, -⟩ := block_indices t
  show V m c main_arg2 (((cfg0.win 0).blk t).view.emb (ix2 p k)) = V m c main_arg2 (ix2 p k)
  refine congrArg _ (funext fun a => Fin.ext ?_)
  match a with
  | ⟨0, _⟩ => show win0_0.index t (0 : Fin 2) * 64 + 1 * p.val = p.val; omega
  | ⟨1, _⟩ => show win0_0.index t (1 : Fin 2) * 64 + 1 * k.val = k.val; omega

/-- C's window at any point is the whole of C. -/
theorem block_C (c : Dev nD) (t : Fin cfg0.N) (p k : Fin 64) : iblk m c 1 t (ix2 p k) = V m c main_arg3 (ix2 p k) := by
  obtain ⟨-, -, e0, e1, -⟩ := block_indices t
  show V m c main_arg3 (((cfg0.win 1).blk t).view.emb (ix2 p k)) = V m c main_arg3 (ix2 p k)
  refine congrArg _ (funext fun a => Fin.ext ?_)
  match a with
  | ⟨0, _⟩ => show win0_1.index t (0 : Fin 2) * 64 + 1 * p.val = p.val; omega
  | ⟨1, _⟩ => show win0_1.index t (1 : Fin 2) * 64 + 1 * k.val = k.val; omega

/-- h's window at point t is slab t of h. -/
theorem block_h (c : Dev nD) (t : Fin cfg0.N) (k : Fin 64) (q : Fin 8192) :
    iblk m c 2 t (ix2 k q) = V m c main_arg0 (ix2 k (slabCol t.val (point_lt t) q)) := by
  obtain ⟨-, -, -, -, e0, e1, -⟩ := block_indices t
  show V m c main_arg0 (((cfg0.win 2).blk t).view.emb (ix2 k q)) = V m c main_arg0 (ix2 k (slabCol t.val (point_lt t) q))
  refine congrArg _ (funext fun a => Fin.ext ?_)
  match a with
  | ⟨0, _⟩ => show win0_2.index t (0 : Fin 2) * 64 + 1 * k.val = k.val; omega
  | ⟨1, _⟩ => show win0_2.index t (1 : Fin 2) * 8192 + 1 * q.val = t.val * 8192 + q.val; omega

/-- c's window at point t is slab t of c. -/
theorem block_c (c : Dev nD) (t : Fin cfg0.N) (k : Fin 64) (q : Fin 8192) :
    iblk m c 3 t (ix2 k q) = V m c main_arg1 (ix2 k (slabCol t.val (point_lt t) q)) := by
  obtain ⟨-, -, -, -, -, -, e0, e1, -⟩ := block_indices t
  show V m c main_arg1 (((cfg0.win 3).blk t).view.emb (ix2 k q)) = V m c main_arg1 (ix2 k (slabCol t.val (point_lt t) q))
  refine congrArg _ (funext fun a => Fin.ext ?_)
  match a with
  | ⟨0, _⟩ => show win0_3.index t (0 : Fin 2) * 64 + 1 * k.val = k.val; omega
  | ⟨1, _⟩ => show win0_3.index t (1 : Fin 2) * 8192 + 1 * q.val = t.val * 8192 + q.val; omega

/-- Entry j of the result's block at point t sits at row j₀ and column 8192·t + j₁ of the result array. -/
theorem block_out (t : Fin cfg0.N) (j : S64x8192.Idx) :
    ((cfg0.win 4).blk t).view.emb j = ix2 (j 0) (slabCol t.val (point_lt t) (j 1)) := by
  obtain ⟨-, -, -, -, -, -, -, -, e0, e1⟩ := block_indices t
  funext a; apply Fin.ext
  match a with
  | ⟨0, _⟩ => show win0_4.index t (0 : Fin 2) * 64 + 1 * (j 0).val = (j 0).val; omega
  | ⟨1, _⟩ => show win0_4.index t (1 : Fin 2) * 8192 + 1 * (j 1).val = t.val * 8192 + (j 1).val; omega

/-- The body's value at entry j of point t's slab is the hidden state at that entry's place in the whole array. -/
theorem slab_entry (c : Dev nD) (t : Fin cfg0.N) (j : S64x8192.Idx) :
    k0_pay1 (F := Ideal) (iblk m c 0 t) (iblk m c 1 t) (iblk m c 2 t) (iblk m c 3 t) j
      = hidden (V m c main_arg2) (V m c main_arg3) (V m c main_arg0) (V m c main_arg1)
          (ix2 (j 0) (slabCol t.val (point_lt t) (j 1))) := by
  obtain ⟨p, q, rfl⟩ : ∃ (p : Fin 64) (q : Fin 8192), j = ix2 p q := ⟨j 0, j 1, eq_ix2 j⟩
  refine (payload_apply (iblk m c 0 t) (iblk m c 1 t) (iblk m c 2 t) (iblk m c 3 t) p q).trans ?_
  exact hidden_slab (V m c main_arg2) (V m c main_arg3) (iblk m c 0 t) (iblk m c 1 t) (V m c main_arg0) (V m c main_arg1)
    (iblk m c 2 t) (iblk m c 3 t) t.val (point_lt t) (block_H m c t) (block_C m c t) (block_h m c t) (block_c m c t) p q

/-- WHAT POINT t WRITES BACK is slab t of the hidden state of the argument arrays. -/
theorem slab_written (c : Dev nD) (t : Fin cfg0.N) :
    (dats m 0 c).flushed 4 t = ((cfg0.win 4).blk t).view.read (Elt Ideal)
      (hidden (V m c main_arg2) (V m c main_arg3) (V m c main_arg0) (V m c main_arg1)) := by
  rw [Value.flushed4]
  unfold out0_4
  rw [View.canon_unit_zero origin]
  simp only [View.ld_unit_zero (S := S64x64) origin, View.ld_unit_zero (S := S64x8192) origin]
  funext j
  show k0_pay1 (F := Ideal) (iblk m c 0 t) (iblk m c 1 t) (iblk m c 2 t) (iblk m c 3 t) j
    = hidden (V m c main_arg2) (V m c main_arg3) (V m c main_arg0) (V m c main_arg1) (((cfg0.win 4).blk t).view.emb j)
  rw [block_out t j]
  exact slab_entry m c t j

/-- An index of the result array is in point t's block iff each coordinate is in the block's range on its axis. -/
theorem mem_block (t : Fin cfg0.N) (i : S64x524288.Idx) :
    i ∈ ((cfg0.win 4).blk t).view.set ↔ ∀ a : Fin 2, win0_4.index t a * S64x8192.size a ≤ (i a).val ∧ (i a).val < win0_4.index t a * S64x8192.size a + S64x8192.size a := by
  show i ∈ ((View.whole main_v0).slice (win0_4.rect t)).set ↔ _
  rw [View.set_slice_whole, Rect.mem_set_unit]
  exact Iff.rfl

/-- Every entry of the result array is written by some point: column n by point n / 8192. -/
theorem covered (i : S64x524288.Idx) :
    ∃ t : Fin cfg0.N, (cfg0.win 4).flush t = true ∧ i ∈ ((cfg0.win 4).blk t).view.set := by
  have hi0 : (i 0).val < 64 := (i 0).isLt
  have hi1 : (i 1).val < 524288 := (i 1).isLt
  have hN : (i 1).val / 8192 < cfg0.N := by rw [show cfg0.N = 64 from N_0]; omega
  refine ⟨⟨(i 1).val / 8192, hN⟩, flush0_4 _, ?_⟩
  obtain ⟨-, -, -, -, -, -, -, -, e0, e1⟩ := block_indices ⟨(i 1).val / 8192, hN⟩
  rw [mem_block]
  intro a
  match a with
  | ⟨0, _⟩ =>
    show win0_4.index ⟨(i 1).val / 8192, hN⟩ (0 : Fin 2) * 64 ≤ (i 0).val ∧ (i 0).val < win0_4.index ⟨(i 1).val / 8192, hN⟩ (0 : Fin 2) * 64 + 64
    omega
  | ⟨1, _⟩ =>
    show win0_4.index ⟨(i 1).val / 8192, hN⟩ (1 : Fin 2) * 8192 ≤ (i 1).val ∧ (i 1).val < win0_4.index ⟨(i 1).val / 8192, hN⟩ (1 : Fin 2) * 8192 + 8192
    have e1' : win0_4.index ⟨(i 1).val / 8192, hN⟩ (1 : Fin 2) = (i 1).val / 8192 := e1
    omega

/-- THE RESULT ARRAY after the run is the hidden state of the argument arrays as launched. -/
theorem result_array (c : Dev nD) : (dats m 0 c).arrAt 4 cfg0.N
    = hidden (m ((c : Thread nD τ).loc main_arg2)) (m ((c : Thread nD τ).loc main_arg3))
        (m ((c : Thread nD τ).loc main_arg0)) (m ((c : Thread nD τ).loc main_arg1)) :=
  (dats m 0 c).arrAt_eq_of_cover 4
    (hidden (V m c main_arg2) (V m c main_arg3) (V m c main_arg0) (V m c main_arg1))
    (fun t _ => slab_written m c t) covered

/-- The kernel's run: every weakly fair execution ends with the result array at the hidden state of the arguments, and the
    arguments as launched. -/
theorem run : θ_run defs (onTc (τ := τ) (main (F := Ideal))) ⟨m, fun _ => 0, ρ⟩ fun r => ∀ c : Dev nD,
      r.2.mem ((c : Thread nD τ).loc main_v0)
        = hidden (m ((c : Thread nD τ).loc main_arg2)) (m ((c : Thread nD τ).loc main_arg3))
            (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (result_array m c), (h c).2⟩) (Value.run_blocks m ρ)

end Cert.KernelIdeal.HiddenValue

end
-- ==== Proof.ReferenceHidden.lean ====
/-
  The reference computes the hidden state. Its program is four host operations: the product H·h, the product C·c, their
  entrywise sum, and the hyperbolic tangent of the sum. On the extended reals each product's entry (a, n) is the sum over the 64
  agents k of the left factor at (a, k) times the right factor at (k, n), so the program's result is `hidden` entry by entry.
-/
import proofs.«147087_j34995393527975_1_alg».proof.Proof.Gen.ReferenceIdeal
import proofs.«147087_j34995393527975_1_alg».proof.Proof.Hidden

noncomputable section

namespace Cert.ReferenceIdeal.HiddenValue

open Cert.ReferenceIdeal Cert.ReferenceIdeal.Gen Idealize.ShloMosaic Idealize.ShloMosaic.ValueIdx

/-- The reference's products are plain ones: 64×64 by 64×524288, rows by columns, the agent axis contracted. -/
theorem dims_plain : dot_S64x64_S64x524288_S64x524288_1_0_0_1_n_n = DotDims.plain 64 64 524288 := rfl

/-- The term the four operations compose to is the hidden state of its arguments. -/
theorem result_eq (H C : FVec Ideal S64x64 .f32) (h c : FVec Ideal S64x524288 .f32) :
    Host.tanh (addf (Host.dotGeneral dot_S64x64_S64x524288_S64x524288_1_0_0_1_n_n none H h)
      (Host.dotGeneral dot_S64x64_S64x524288_S64x524288_1_0_0_1_n_n none C c))
      = Cert.Hidden.hidden H C h c := by
  funext i
  obtain ⟨a, b, rfl⟩ : ∃ (a : Fin 64) (b : Fin 524288), i = ix2 a b := ⟨i 0, i 1, eq_ix2 i⟩
  show Ideal.tanh (Host.dotGeneral dot_S64x64_S64x524288_S64x524288_1_0_0_1_n_n none H h (ix2 a b)
    + Host.dotGeneral dot_S64x64_S64x524288_S64x524288_1_0_0_1_n_n none C c (ix2 a b)) = _
  rw [SideBySide.hostProduct_apply _ dims_plain, SideBySide.hostProduct_apply _ dims_plain]
  rfl

end Cert.ReferenceIdeal.HiddenValue

end
-- ==== Proof.lean ====
/-
  A layer's hidden state, computed slab by slab on the matrix unit, against its plain definition.

  Both programs take h, c (64 agents × 524288 features) and the mixing matrices H, C (64 × 64) and return the hidden state

      hidden(a, n) = tanh( Σ_k H(a, k) · h(k, n) + Σ_k C(a, k) · c(k, n) )

  twice (the layer's second result is the first). The reference forms the two products whole, adds them and takes the tangent. The
  kernel walks the feature axis in 64 slabs of 8192 columns: at each it narrows H, C and the slab of h and c to bfloat16, forms
  the two 64×8192 products on the matrix unit into zero accumulators, adds them, takes the tangent and writes the slab back.

  On the extended reals a change of float format is the identity, a zero accumulator adds nothing, and a product's entry is a
  finite sum of 64 products whatever order a machine adds them in; an entry of a product depends on one column of the right factor
  only, so the slab computed from slab t of h and c is slab t of the hidden state, and the 64 slabs tile the array. Hence the kernel's
  result array is the hidden state of its arguments (Proof/KernelRun.lean), and so is the reference's (Proof/ReferenceHidden.lean).
  No entry is asked to be finite: only sums and products of the same terms are compared, so the precondition is never opened.

  The idealized kernel is the kernel's own text read on the extended reals (no rewrite was made), so that claim is empty. Each
  program runs to its end leaving its arguments as they were: the two kernels by their generated frames, the reference by its
  generated run.
-/
import proofs.«147087_j34995393527975_1_alg».proof.Defs
import proofs.«147087_j34995393527975_1_alg».proof.Proof.Gen.Kernel
import proofs.«147087_j34995393527975_1_alg».proof.Proof.Gen.Kernel.Frame
import proofs.«147087_j34995393527975_1_alg».proof.Proof.Gen.KernelIdeal
import proofs.«147087_j34995393527975_1_alg».proof.Proof.Gen.KernelIdeal.Frame
import proofs.«147087_j34995393527975_1_alg».proof.Proof.Gen.KernelIdeal.Value
import proofs.«147087_j34995393527975_1_alg».proof.Proof.Gen.ReferenceIdeal
import proofs.«147087_j34995393527975_1_alg».proof.Proof.Gen.ReferenceIdeal.Run
import proofs.«147087_j34995393527975_1_alg».proof.Proof.Gen.Pre_finite_inputs
import proofs.«147087_j34995393527975_1_alg».proof.Proof.KernelRun
import proofs.«147087_j34995393527975_1_alg».proof.Proof.ReferenceHidden
import Idealize.ShloMosaic.Adequacy
import Idealize.ShloMosaic.Init

noncomputable section

namespace Cert.Proof

open Idealize.ShloMosaic Idealize.ShloMosaic.TcCoe Idealize.SL.Sem

/-- The kernel, word by word, runs to its end and leaves its arguments as they were. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- So does the reference: its run, with what it says of the results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- From memories that agree on h, c, H and C, both programs end with both results at the hidden state of those arguments. -/
theorem algebraic : Cert.algebraic_KernelIdeal_ReferenceIdeal := by
  intro m ρ m' ρ' _ hagree
  refine ⟨fun c => Cert.Hidden.hidden
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    fun c => Cert.Hidden.hidden
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run Cert.KernelIdeal.defs _ _).mono (fun _ h c => ⟨(h c).1, (h c).1, (h c).2⟩)
      (Cert.KernelIdeal.HiddenValue.run m ρ)
  · refine (θ_run Cert.ReferenceIdeal.defs _ _).mono
      (fun _ h c => ⟨(h c).1.trans ?_, (h c).2.1.trans ?_, (h c).2.2⟩)
      (Cert.ReferenceIdeal.Value.run (F := Ideal) m' ρ')
    all_goals
      rw [(hagree c).1, (hagree c).2.1, (hagree c).2.2.1, (hagree c).2.2.2]
      exact Cert.ReferenceIdeal.HiddenValue.result_eq _ _ _ _

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
